-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S32x128x1024 : Shape := ⟨3, ![32, 128, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S32x128x1024 : S_.BroadcastsInDim S32x128x1024 (![] : Fin 0 → Fin S32x128x1024.rank)
  reducesTo_S32x128x1024_S_d0_1_2 : S32x128x1024.ReducesTo [0, 1, 2] S_

variable [Facts]

def fn {F : FTy → Type} [FloatOps F] (main_arg0 : FVec F S8192x1024 .f32) (main_arg1 : FVec F S32x128x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S32x128x1024 .f32 := Host.absf main_arg1
  let main_cst_0 : FVec F S_ .f32 := constant S_ .f32 0x7F800000#32
  let main_v5 : FVec F S32x128x1024 .f32 := broadcastInDim S32x128x1024 ![] bcast_S_S32x128x1024 main_cst_0
  let main_v6 : IVec S32x128x1024 1 := cmpf .olt main_v4 main_v5
  let main_c_1 : IVec S_ 1 := constantI S_ 1 1#1
  let main_v7 : IVec S_ 1 := (fun x v => Host.reduce IntOp.andi x v reducesTo_S32x128x1024_S_d0_1_2 h_S_) main_v6 main_c_1
  let main_v8 : IVec S_ 1 := andi main_v3 main_v7
  main_v8
-- ==== Kernel.lean ====
abbrev S8192x1024 : Shape := ⟨2, ![8192, 1024]⟩
abbrev S32x128x1024 : Shape := ⟨3, ![32, 128, 1024]⟩
abbrev S4096 : Shape := ⟨1, ![4096]⟩
abbrev S1x128x1024 : Shape := ⟨3, ![1, 128, 1024]⟩
abbrev S128 : Shape := ⟨1, ![128]⟩
abbrev S128x1024 : Shape := ⟨2, ![128, 1024]⟩
abbrev S8192x128 : Shape := ⟨2, ![8192, 128]⟩
abbrev S1x128 : Shape := ⟨2, ![1, 128]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S32x128x1024, .f32⟩
  | .hbm, ⟨2, _⟩ => ⟨S8192x1024, .bf16⟩
  | .hbm, ⟨3, _⟩ => ⟨S32x128x1024, .bf16⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S128, .f32⟩
  | .local _ .vmem, ⟨4, _⟩ => ⟨S128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  reduces_S8192x128_S128 : S8192x128.Reduces [0] S128
  shapeCasts_S128_S1x128 : S128.ShapeCasts S1x128
  broadcasts_S1x128_S8192x128 : S1x128.Broadcasts S8192x128
  shapeCasts_S1x128_S128 : S1x128.ShapeCasts S128
  inb_S128_S128_0 : ∀ a, (![0] : Fin 1 → Nat) a + S128.size a ≤ S128.size a
  h_S128 : 0 < S128.numel
  reducesTo_S4096_S_d0 : S4096.ReducesTo [0] S_
  h_S_ : 0 < S_.numel
  dot_S8192x1024_S128x1024_S8192x128_1_1_0_0_n_n_wf : DotDims.WF S8192x1024 S128x1024 S8192x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x1024.size a ≤ S8192x1024.size a
  hwx0_0 : ∀ i : grid0.Coords, EltTy.bits .bf16 = 32 ∨ (Rect.block (s := S8192x1024) S8192x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S32x128x1024.size a
  hwx0_1 : ∀ i : grid0.Coords, EltTy.bits .bf16 = 32 ∨ (Rect.block (s := S32x128x1024) S1x128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S4096.size a
  hwx0_2 : ∀ i : grid0.Coords, EltTy.bits .f32 = 32 ∨ (Rect.block (s := S4096) S128.size (cc0_transform_2 i) (hinb0_2 i)).WholeWords (EltTy.packing .f32)

variable [Facts₀]

def dot_S8192x1024_S128x1024_S8192x128_1_1_0_0_n_n : DotDims S8192x1024 S128x1024 S8192x128 where
  lhsContracting := [1]
  rhsContracting := [1]
  lhsNonContracting := [0]
  rhsNonContracting := [0]
  lhsBatch := []
  rhsBatch := []
  wf := dot_S8192x1024_S128x1024_S8192x128_1_1_0_0_n_n_wf

abbrev win0_0 : Pipeline.Window sig grid0 :=
  Pipeline.Window.ofSpec (Memref.whole main_v0) S8192x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S32x128x1024 : Shape := ⟨3, ![32, 128, 1024]⟩
abbrev S32x128x8192 : Shape := ⟨3, ![32, 128, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32x128x1024, .f32⟩
  | .hbm, ⟨2, _⟩ => ⟨S32x128x8192, .f32⟩
  | .hbm, ⟨3, _⟩ => ⟨S4096x8192, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S4096x8192, .f32⟩
  | .hbm, ⟨24, _⟩ => ⟨S4096x8192, .f32⟩
  | .hbm, ⟨25, _⟩ => ⟨S4096x1, .f32⟩
  | .hbm, ⟨26, _⟩ => ⟨S4096x8192, .f32⟩
  | .hbm, ⟨27, _⟩ => ⟨S4096x8192, .f32⟩
  | .hbm, ⟨28, _⟩ => ⟨S4096x8192, .f32⟩
  | .hbm, ⟨29, _⟩ => ⟨S4096x8192, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x8192, .f32⟩
  | .hbm, ⟨36, _⟩ => ⟨S4096x8192, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_cst_13 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  shapeCasts_S32x128x8192_S4096x8192 : S32x128x8192.ShapeCasts S4096x8192
  reducesTo_S4096x8192_S4096_d1 : S4096x8192.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  reducesTo_S4096_S_d0 : S4096.ReducesTo [0] S_
  dot_S32x128x1024_S8192x1024_S32x128x8192_2_1_01_0_n_n_wf : DotDims.WF S32x128x1024 S8192x1024 S32x128x8192 [2] [1] [0, 1] [0] [] []

variable [Facts₀]

def dot_S32x128x1024_S8192x1024_S32x128x8192_2_1_01_0_n_n : DotDims S32x128x1024 S8192x1024 S32x128x8192 where
  lhsContracting := [2]
  rhsContracting := [1]
  lhsNonContracting := [0, 1]
  rhsNonContracting := [0]
  lhsBatch := []
  rhsBatch := []
  wf := dot_S32x128x1024_S8192x1024_S32x128x8192_2_1_01_0_n_n_wf

class Facts : Prop extends Facts₀ where

variable [Facts]
-- ==== Proof.Moments.lean ====
/-
  One row's loss, as a function on the extended reals.

  A row is a family x : Fin 8192 → EReal (one projected direction against the whole batch). From it:
  the mean  μ = (Σ_b x_b) / 8192;  the deviations  x_b − μ;  the spread  σ = √((Σ_b (x_b − μ)²) / 8192) + ε;
  the normalised deviations  n_b = (x_b − μ) / σ;  the third and fourth moments  m₃ = (Σ_b n_b·n_b²) / 8192,
  m₄ = (Σ_b n_b²·n_b²) / 8192;  and the loss  ((μ² + (σ − 1)²) + c·m₃²) + c·(m₄ − 3)².
  The constants are kept as the binary words both programs print (8192, ε, 1, c, 3): the same word is the same
  extended real on both sides, so none is ever evaluated.

  Then the column facts of a [8192, 128] array: its sum over the first axis, re-laid as a [1, 128] row, read at
  lane p is the sum over b of the entries (b, p); a [1, 128] row broadcast down the 8192 rows reads at (b, p) its entry
  at (0, p); and a [1, 128] row re-laid as a [128] vector reads at p its entry at (0, p).
-/
import Idealize.ShloMosaic.PureOps.Ideal
import Idealize.ShloMosaic.PureOps.Ideal.Laws
import Idealize.ShloMosaic.Lib.ValueIdx
import Idealize.ShloMosaic.Lib.Pipeline.Value

noncomputable section

namespace Cert.Sigreg

open Idealize.ShloMosaic Idealize.ShloMosaic.ValueIdx

/-! ## The constants, as printed -/

abbrev cN : EReal := Ideal.ofBits .f32 0x46000000#32
abbrev cEps : EReal := Ideal.ofBits .f32 0x358637BD#32
abbrev cOne : EReal := Ideal.ofBits .f32 0x3F800000#32
abbrev cTenth : EReal := Ideal.ofBits .f32 0x3DCCCCCD#32
abbrev cThree : EReal := Ideal.ofBits .f32 0x40400000#32

/-! ## A row's moments and loss -/

def rowMean (x : Fin 8192 → EReal) : EReal := Ideal.div (∑ b, x b) cN
def rowDev (x : Fin 8192 → EReal) (b : Fin 8192) : EReal := x b - rowMean x
def rowStd (x : Fin 8192 → EReal) : EReal := Ideal.sqrt (Ideal.div (∑ b, rowDev x b * rowDev x b) cN) + cEps
def rowNrm (x : Fin 8192 → EReal) (b : Fin 8192) : EReal := Ideal.div (rowDev x b) (rowStd x)
def rowM3 (x : Fin 8192 → EReal) : EReal := Ideal.div (∑ b, rowNrm x b * (rowNrm x b * rowNrm x b)) cN
def rowM4 (x : Fin 8192 → EReal) : EReal := Ideal.div (∑ b, (rowNrm x b * rowNrm x b) * (rowNrm x b * rowNrm x b)) cN
def rowLoss (x : Fin 8192 → EReal) : EReal :=
  ((rowMean x * rowMean x + (rowStd x - cOne) * (rowStd x - cOne)) + cTenth * (rowM3 x * rowM3 x))
    + cTenth * ((rowM4 x - cThree) * (rowM4 x - cThree))

/-! ## Columns of a [8192, 128] array -/

abbrev SBP : Shape := ⟨2, ![8192, 128]⟩
abbrev SP : Shape := ⟨1, ![128]⟩
abbrev S1P : Shape := ⟨2, ![1, 128]⟩

/-- The first lane-row index of a [1, 128] row. -/
abbrev r0 (p : Fin 128) : S1P.Idx := ix2 (0 : Fin 1) p

/-- The sum over the first axis, re-laid as a row, at lane p: the sum of column p. -/
theorem colsum_apply (Z : FVec Ideal SBP .f32) (h : SBP.Reduces [0] SP) (hφ : FKind.Formats .f32)
    (hacc : (0x00000000#32 : BitVec 32) = 0x00000000#32) (hc : SP.ShapeCasts S1P) (p : Fin 128) :
    shapeCast S1P (multiReduction .add [0] SP Z 0x00000000#32 h hφ hacc) hc (r0 p) = ∑ b : Fin 8192, Z (ix2 b p) := by
  refine (shapeCast_apply _ hc (r0 p) (ix1 p) (by rw [Shape.rowMajor_val_one, Shape.rowMajor_val_two]; simp)).trans ?_
  refine (Ideal.multiReduction_add_single Z 0x00000000#32 h hφ hacc (ix1 p)).trans ?_
  refine Finset.sum_congr rfl fun b _ => congrArg Z (funext fun a => Fin.ext ?_)
  rw [h.lift_val]
  match a with
  | ⟨0, _⟩ => rfl
  | ⟨1, _⟩ => rfl

/-- A row broadcast down the rows reads its lane. -/
theorem rowcast_apply (r : FVec Ideal S1P .f32) (h : S1P.Broadcasts SBP) (b : Fin 8192) (p : Fin 128) :
    broadcastTo SBP r h (ix2 b p) = r (r0 p) :=
  broadcastTo_apply r h (ix2 b p) (r0 p) fun a => by
    match a with
    | ⟨0, _⟩ => rfl
    | ⟨1, _⟩ => rfl

/-- A row re-laid as a vector reads its lane. -/
theorem unrow_apply (r : FVec Ideal S1P .f32) (h : S1P.ShapeCasts SP) (p : Fin 128) :
    shapeCast SP r h (ix1 p) = r (r0 p) :=
  shapeCast_apply r h (ix1 p) (r0 p) (by rw [Shape.rowMajor_val_one, Shape.rowMajor_val_two]; simp)

/-! ## The whole result -/

abbrev SE : Shape := ⟨2, ![8192, 1024]⟩
abbrev SPr : Shape := ⟨3, ![32, 128, 1024]⟩
abbrev SL : Shape := ⟨1, ![4096]⟩
abbrev S0 : Shape := ⟨0, ![]⟩

/-- Row (k, p): projection p of set k against every sample b, the sum over the embedding axis d of
    E[b, d] · P[k, p, d]. -/
def projRow (E : SE.Idx → EReal) (P : SPr.Idx → EReal) (k : Fin 32) (p : Fin 128) : Fin 8192 → EReal :=
  fun b => ∑ d : Fin 1024, E (ix2 b d) * P (ix3 k p d)

/-- The 4096 losses: entry 128·k + p is the loss of row (k, p). -/
def lossArr (E : SE.Idx → EReal) (P : SPr.Idx → EReal) : SL.Idx → EReal := fun i =>
  rowLoss (projRow E P ⟨(i 0).val / 128, by have h4 : (i 0).val < 4096 := (i 0).isLt; omega⟩ ⟨(i 0).val % 128, Nat.mod_lt _ (by decide)⟩)

theorem lossArr_at (E : SE.Idx → EReal) (P : SPr.Idx → EReal) (k : Fin 32) (p : Fin 128) (i : SL.Idx)
    (h : (i 0).val = k.val * 128 + p.val) : lossArr E P i = rowLoss (projRow E P k p) := by
  unfold lossArr
  have hk : (⟨(i 0).val / 128, by have h4 : (i 0).val < 4096 := (i 0).isLt; omega⟩ : Fin 32) = k := Fin.ext (by show (i 0).val / 128 = k.val; have := p.isLt; omega)
  have hp : (⟨(i 0).val % 128, Nat.mod_lt _ (by decide)⟩ : Fin 128) = p := Fin.ext (by show (i 0).val % 128 = p.val; have := p.isLt; omega)
  rw [hk, hp]

/-- The closing mean over the 4096 losses, as both programs' host lines take it: the sum from the zero word,
    divided by the word 4096. -/
def meanOf (y : FVec Ideal SL .f32) (h : SL.ReducesTo [0] S0) (h0 : 0 < S0.numel) : FVec Ideal S0 .f32 :=
  Host.divf (Host.reduceAdd y (constant S0 .f32 0x00000000#32) h h0) (constant S0 .f32 0x45800000#32)

end Cert.Sigreg

end
-- ==== Proof.KernelRow.lean ====
/-
  What the kernel body computes at one grid point, lane by lane, on the extended reals.

  The body loads one projection block P : [1, 128, 1024] and the whole embedding array E : [8192, 1024], forms the
  product Z[b, p] = Σ_d E[b, d] · P[0, p, d] (a matrix product into a zero accumulator), and from each column
  Z[·, p] takes the row loss of `Cert.Sigreg`: the mean, the spread, the normalised deviations, the third and fourth
  moments, and the quadratic loss. Each payload of the body is read here at an index, in the order the body computes
  them, each in terms of the column `col p = fun b => Z[b, p]`; the last one, the stored vector, at lane p is
  `rowLoss (col p)`.
-/
import proofs.«107740_j35055523070528_1_alg».proof.Proof.Gen.KernelIdeal.Skeleton
import proofs.«107740_j35055523070528_1_alg».proof.Proof.Moments

noncomputable section

namespace Cert.KernelIdeal.Hand

open Idealize.ShloMosaic Idealize.ShloMosaic.ValueIdx Cert.KernelIdeal Cert.KernelIdeal.Gen Cert.Sigreg

variable (P : Vec Ideal S1x128x1024 .bf16) (E : Vec Ideal S8192x1024 .bf16)

/-! ## The product, at an index -/

theorem lhs_mm_0 (i : S8192x128.Idx) (q : dot_S8192x1024_S128x1024_S8192x128_1_1_0_0_n_n.contr.Idx) :
    (dot_S8192x1024_S128x1024_S8192x128_1_1_0_0_n_n.lhsIdx i q 0).val = (i 0).val := by
  unfold DotDims.lhsIdx
  rw [dif_neg (show ¬(0 : Fin S8192x1024.rank) ∈ dot_S8192x1024_S128x1024_S8192x128_1_1_0_0_n_n.lhsBatch by decide), dif_pos (show (0 : Fin S8192x1024.rank) ∈ dot_S8192x1024_S128x1024_S8192x128_1_1_0_0_n_n.lhsNonContracting by decide)]
  rfl
theorem lhs_mm_1 (i : S8192x128.Idx) (q : dot_S8192x1024_S128x1024_S8192x128_1_1_0_0_n_n.contr.Idx) :
    (dot_S8192x1024_S128x1024_S8192x128_1_1_0_0_n_n.lhsIdx i q 1).val = (q ⟨0, by decide⟩).val :=
  dot_S8192x1024_S128x1024_S8192x128_1_1_0_0_n_n.lhsIdx_val_of_single rfl i q
theorem rhs_mm_0 (i : S8192x128.Idx) (q : dot_S8192x1024_S128x1024_S8192x128_1_1_0_0_n_n.contr.Idx) :
    (dot_S8192x1024_S128x1024_S8192x128_1_1_0_0_n_n.rhsIdx i q 0).val = (i 1).val := by
  unfold DotDims.rhsIdx
  rw [dif_neg (show ¬(0 : Fin S128x1024.rank) ∈ dot_S8192x1024_S128x1024_S8192x128_1_1_0_0_n_n.rhsBatch by decide), dif_pos (show (0 : Fin S128x1024.rank) ∈ dot_S8192x1024_S128x1024_S8192x128_1_1_0_0_n_n.rhsNonContracting by decide)]
  rfl
theorem rhs_mm_1 (i : S8192x128.Idx) (q : dot_S8192x1024_S128x1024_S8192x128_1_1_0_0_n_n.contr.Idx) :
    (dot_S8192x1024_S128x1024_S8192x128_1_1_0_0_n_n.rhsIdx i q 1).val = (q ⟨0, by decide⟩).val :=
  dot_S8192x1024_S128x1024_S8192x128_1_1_0_0_n_n.rhsIdx_val_of_single rfl i q

/-- The projection block without its leading unit axis, at (p, d). -/
theorem unblock_apply (h : S1x128x1024.ShapeCasts S128x1024) (p : Fin 128) (d : Fin 1024) :
    shapeCast S128x1024 P h (ix2 p d) = P (ix3 (0 : Fin 1) p d) :=
  shapeCast_apply P h (ix2 p d) (ix3 (0 : Fin 1) p d) (by rw [Shape.rowMajor_val_three, Shape.rowMajor_val_two]; simp)

/-- Z[b, p] = Σ_d E[b, d] · P[0, p, d]. -/
theorem pay2_apply (b : Fin 8192) (p : Fin 128) :
    k0_pay2 (F := Ideal) P E (ix2 b p) = ∑ d : Fin 1024, E (ix2 b d) * P (ix3 (0 : Fin 1) p d) := by
  unfold k0_pay2
  simp only [matmul]
  rw [Ideal.matmul_constant_zero_apply, ← Equiv.sum_comp (ValueIdx.contrEquiv1 dot_S8192x1024_S128x1024_S8192x128_1_1_0_0_n_n 1024 rfl rfl).symm]
  refine Finset.sum_congr rfl fun d _ => ?_
  have hk := ValueIdx.contrEquiv1_symm_val dot_S8192x1024_S128x1024_S8192x128_1_1_0_0_n_n 1024 rfl rfl d
  have el : dot_S8192x1024_S128x1024_S8192x128_1_1_0_0_n_n.lhsIdx (ix2 b p) ((ValueIdx.contrEquiv1 dot_S8192x1024_S128x1024_S8192x128_1_1_0_0_n_n 1024 rfl rfl).symm d) = ix2 b d := funext fun a => Fin.ext (by
    match a with
    | ⟨0, _⟩ => exact lhs_mm_0 _ _
    | ⟨1, _⟩ => exact (lhs_mm_1 _ _).trans hk)
  have er : dot_S8192x1024_S128x1024_S8192x128_1_1_0_0_n_n.rhsIdx (ix2 b p) ((ValueIdx.contrEquiv1 dot_S8192x1024_S128x1024_S8192x128_1_1_0_0_n_n 1024 rfl rfl).symm d) = ix2 p d := funext fun a => Fin.ext (by
    match a with
    | ⟨0, _⟩ => exact rhs_mm_0 _ _
    | ⟨1, _⟩ => exact (rhs_mm_1 _ _).trans hk)
  rw [el, er, shapeCast_self, unblock_apply]

/-! ## The columns and their moments -/

/-- Column p of the product. -/
def col (p : Fin 128) : Fin 8192 → EReal := fun b => k0_pay2 (F := Ideal) P E (ix2 b p)

theorem pay3_apply (p : Fin 128) : k0_pay3 (F := Ideal) P E (r0 p) = rowMean (col P E p) := by
  unfold k0_pay3
  show Ideal.div (shapeCast S1x128 (multiReduction .add [0] S128 (k0_pay2 (F := Ideal) P E) _ _ _ _) _ (r0 p)) cN = _
  rw [colsum_apply]
  rfl

theorem pay4_apply (b : Fin 8192) (p : Fin 128) : k0_pay4 (F := Ideal) P E (ix2 b p) = rowDev (col P E p) b := by
  unfold k0_pay4
  show k0_pay2 (F := Ideal) P E (ix2 b p) - broadcastTo S8192x128 (k0_pay3 (F := Ideal) P E) _ (ix2 b p) = _
  rw [rowcast_apply, pay3_apply]
  rfl

theorem pay5_apply (p : Fin 128) : k0_pay5 (F := Ideal) P E (r0 p) = rowStd (col P E p) := by
  unfold k0_pay5
  show Ideal.sqrt (Ideal.div (shapeCast S1x128 (multiReduction .add [0] S128 (mulf (k0_pay4 (F := Ideal) P E) (k0_pay4 (F := Ideal) P E)) _ _ _ _) _ (r0 p)) cN) + cEps = _
  rw [colsum_apply]
  simp only [mulf_apply, pay4_apply]
  rfl

theorem pay6_apply (b : Fin 8192) (p : Fin 128) : k0_pay6 (F := Ideal) P E (ix2 b p) = rowNrm (col P E p) b := by
  unfold k0_pay6
  show Ideal.div (k0_pay4 (F := Ideal) P E (ix2 b p)) (broadcastTo S8192x128 (k0_pay5 (F := Ideal) P E) _ (ix2 b p)) = _
  rw [rowcast_apply, pay5_apply, pay4_apply]
  rfl

theorem pay7_apply (p : Fin 128) : k0_pay7 (F := Ideal) P E (r0 p) = rowM4 (col P E p) := by
  unfold k0_pay7
  show Ideal.div (shapeCast S1x128 (multiReduction .add [0] S128 (mulf (mulf (k0_pay6 (F := Ideal) P E) (k0_pay6 (F := Ideal) P E)) (mulf (k0_pay6 (F := Ideal) P E) (k0_pay6 (F := Ideal) P E))) _ _ _ _) _ (r0 p)) cN = _
  rw [colsum_apply]
  simp only [mulf_apply, pay6_apply]
  rfl

theorem pay8_apply (p : Fin 128) : k0_pay8 (F := Ideal) P E (r0 p)
    = (rowMean (col P E p) * rowMean (col P E p) + (rowStd (col P E p) - cOne) * (rowStd (col P E p) - cOne))
      + cTenth * (rowM3 (col P E p) * rowM3 (col P E p)) := by
  unfold k0_pay8
  show (k0_pay3 (F := Ideal) P E (r0 p) * k0_pay3 (F := Ideal) P E (r0 p) + (k0_pay5 (F := Ideal) P E (r0 p) - cOne) * (k0_pay5 (F := Ideal) P E (r0 p) - cOne))
      + cTenth * (Ideal.div (shapeCast S1x128 (multiReduction .add [0] S128 (mulf (k0_pay6 (F := Ideal) P E) (mulf (k0_pay6 (F := Ideal) P E) (k0_pay6 (F := Ideal) P E))) _ _ _ _) _ (r0 p)) cN
        * Ideal.div (shapeCast S1x128 (multiReduction .add [0] S128 (mulf (k0_pay6 (F := Ideal) P E) (mulf (k0_pay6 (F := Ideal) P E) (k0_pay6 (F := Ideal) P E))) _ _ _ _) _ (r0 p)) cN) = _
  rw [colsum_apply, pay3_apply, pay5_apply]
  simp only [mulf_apply, pay6_apply]
  rfl

/-- The stored vector at lane p is the row loss of column p. -/
theorem stored_apply (p : Fin 128) :
    k0_pay1 (F := Ideal) (k0_pay7 (F := Ideal) P E) (k0_pay8 (F := Ideal) P E) (ix1 p) = rowLoss (col P E p) := by
  unfold k0_pay1
  rw [unrow_apply]
  show k0_pay8 (F := Ideal) P E (r0 p) + cTenth * ((k0_pay7 (F := Ideal) P E (r0 p) - cThree) * (k0_pay7 (F := Ideal) P E (r0 p) - cThree)) = _
  rw [pay8_apply, pay7_apply]
  rfl

end Cert.KernelIdeal.Hand

end
-- ==== Proof.KernelValue.lean ====
/-
  The idealized kernel's result as one function of its two argument arrays.

  The region has 32 grid points. Point t stages the whole embedding array (its one block, index (0, 0)) and block
  t of the projections (index (t, 0, 0) of blocks [1, 128, 1024]), and writes back block t of the 4096 losses
  (128 entries). By the lane-by-lane reading of the body, what point t writes back at lane p is the row loss of
  row (t, p), which is entry 128·t + p of `lossArr`: block t of one whole-array function. The 32 blocks tile the
  4096 entries (entry i lies in block i / 128), so after the region the loss array IS `lossArr` of the two staged
  arrays. Those are the arguments after a change of float format, the identity on the extended reals; and the host
  lines after the region take the mean of the 4096 losses.
-/
import proofs.«107740_j35055523070528_1_alg».proof.Proof.Gen.KernelIdeal.Frame
import proofs.«107740_j35055523070528_1_alg».proof.Proof.KernelRow
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Sigreg

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The staged arrays as the region finds them, and the two input blocks at a point, at their literal types. -/
abbrev Earr (c : Dev nD) : Vec Ideal S8192x1024 .bf16 := V m c main_v0
abbrev Parr (c : Dev nD) : Vec Ideal S32x128x1024 .bf16 := V m c main_v1
abbrev Eblk (c : Dev nD) (t : Fin cfg0.N) : Vec Ideal S8192x1024 .bf16 := iblk m c 0 t
abbrev Pblk (c : Dev nD) (t : Fin cfg0.N) : Vec Ideal S1x128x1024 .bf16 := iblk m c 1 t

/-- The printed index maps over the grid: the embeddings' block never moves, the projections' and the
    losses' block index is the point. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 1) = t.val :=
  (by decide +kernel : ∀ t : Fin grid0.N, _)

/-- The embeddings' block at any point is the whole staged array. -/
theorem Eblk_apply (c : Dev nD) (t : Fin cfg0.N) (b : Fin 8192) (d : Fin 1024) :
    Eblk m c t (ix2 b d) = Earr m c (ix2 b d) := by
  obtain ⟨e0, e1, -, -, -, -⟩ := idx_facts t
  show V m c main_v0 (((cfg0.win 0).blk t).view.emb (ix2 b d)) = V m c main_v0 (ix2 b d)
  refine congrArg (V m c main_v0) (funext fun a => Fin.ext ?_)
  match a with
  | ⟨0, _⟩ => show win0_0.index t (0 : Fin 2) * 8192 + 1 * b.val = b.val; omega
  | ⟨1, _⟩ => show win0_0.index t (1 : Fin 2) * 1024 + 1 * d.val = d.val; omega

/-- The projections' block at point t is set t of the staged array. -/
theorem Pblk_apply (c : Dev nD) (t : Fin cfg0.N) (k : Fin 32) (hk : k.val = t.val) (p : Fin 128) (d : Fin 1024) :
    Pblk m c t (ix3 (0 : Fin 1) p d) = Parr m c (ix3 k p d) := by
  obtain ⟨-, -, e0, e1, e2, -⟩ := idx_facts t
  show V m c main_v1 (((cfg0.win 1).blk t).view.emb (ix3 (0 : Fin 1) p d)) = V m c main_v1 (ix3 k p d)
  refine congrArg (V m c main_v1) (funext fun a => Fin.ext ?_)
  match a with
  | ⟨0, _⟩ => show win0_1.index t (0 : Fin 3) * 1 + 1 * 0 = k.val; omega
  | ⟨1, _⟩ => show win0_1.index t (1 : Fin 3) * 128 + 1 * p.val = p.val; omega
  | ⟨2, _⟩ => show win0_1.index t (2 : Fin 3) * 1024 + 1 * d.val = d.val; omega

/-- WHAT POINT t WRITES BACK is block t of `lossArr` of the staged arrays. -/
theorem flushed_eq (c : Dev nD) (t : Fin cfg0.N) :
    (dats m 0 c).flushed 2 t = ((cfg0.win 2).blk t).view.read (Elt Ideal) (lossArr (Earr m c) (Parr m c)) := by
  show (cfg0.win 2).cut (grid0.coords t) ((dats m 0 c).after 2 t) = _
  rw [after0_2]
  unfold out0_2
  rw [View.canon_unit_zero hz1]
  simp only [View.ld_unit_zero (S := S1x128x1024) hz3, View.ld_unit_zero (S := S8192x1024) hz2]
  obtain ⟨-, -, -, -, -, e2⟩ := idx_facts t
  have hN : t.val < 32 := by have h := t.isLt; have e : cfg0.N = 32 := N_0; omega
  funext y
  obtain ⟨p, rfl⟩ : ∃ p : Fin 128, y = ix1 p := ⟨y 0, eq_ix1 y⟩
  show k0_pay1 (F := Ideal) (k0_pay7 (F := Ideal) (Pblk m c t) (Eblk m c t)) (k0_pay8 (F := Ideal) (Pblk m c t) (Eblk m c t)) (ix1 p)
    = lossArr (Earr m c) (Parr m c) (((cfg0.win 2).blk t).view.emb (ix1 p))
  refine (stored_apply (Pblk m c t) (Eblk m c t) p).trans ?_
  refine (congrArg rowLoss (funext fun b => ?_)).trans
    (lossArr_at (Earr m c) (Parr m c) ⟨t.val, hN⟩ p _ (by show win0_2.index t (0 : Fin 1) * 128 + 1 * p.val = t.val * 128 + p.val; omega)).symm
  unfold col projRow
  refine (pay2_apply (Pblk m c t) (Eblk m c t) b p).trans (Finset.sum_congr rfl fun d _ => ?_)
  rw [Eblk_apply, Pblk_apply m c t ⟨t.val, hN⟩ rfl]

/-- An index of the loss array is in point t's block iff it is one of entries 128·t … 128·t + 127. -/
theorem mem_blk (t : Fin cfg0.N) (i : S4096.Idx) :
    i ∈ ((cfg0.win 2).blk t).view.set ↔ ∀ a : Fin 1, win0_2.index t a * S128.size a ≤ (i a).val ∧ (i a).val < win0_2.index t a * S128.size a + S128.size a := by
  show i ∈ ((View.whole main_v2).slice (win0_2.rect t)).set ↔ _
  rw [View.set_slice_whole, Rect.mem_set_unit]
  exact Iff.rfl

/-- THE LOSS ARRAY after the region: the 32 blocks tile it. -/
theorem final (c : Dev nD) : (dats m 0 c).arrAt 2 cfg0.N = lossArr (Earr m c) (Parr m c) :=
  (dats m 0 c).arrAt_eq_of_cover 2 (lossArr (Earr m c) (Parr m c)) (fun t _ => flushed_eq m c t) fun i => by
    have hi : (i 0).val < 4096 := (i 0).isLt
    have hN : cfg0.N = 32 := N_0
    refine ⟨⟨(i 0).val / 128, by rw [hN]; omega⟩, flush0_2 _, ?_⟩
    rw [mem_blk]
    intro a
    obtain ⟨-, -, -, -, -, e2⟩ := idx_facts ⟨(i 0).val / 128, by rw [hN]; omega⟩
    match a with
    | ⟨0, _⟩ =>
      show win0_2.index ⟨(i 0).val / 128, _⟩ (0 : Fin 1) * 128 ≤ (i 0).val ∧ (i 0).val < win0_2.index ⟨(i 0).val / 128, _⟩ (0 : Fin 1) * 128 + 128
      rw [e2]
      show (i 0).val / 128 * 128 ≤ (i 0).val ∧ (i 0).val < (i 0).val / 128 * 128 + 128
      omega

/-- The host lines before the region change the float format of each argument: the identity here. -/
theorem Earr_eq (c : Dev nD) : (Earr m c : S8192x1024.Idx → EReal) = m ((c : Thread nD τ).loc main_arg0) := by
  show StableHlo.after hostOps0 (fun b => m (c, b)) (Proc.devRef .tc main_v0) = _
  after_results
  rfl
theorem Parr_eq (c : Dev nD) : (Parr m c : S32x128x1024.Idx → EReal) = m ((c : Thread nD τ).loc main_arg1) := by
  show StableHlo.after hostOps0 (fun b => m (c, b)) (Proc.devRef .tc main_v1) = _
  after_results
  rfl

/-- The result: the mean of the 4096 losses of the two arguments. -/
abbrev result (c : Dev nD) : Buf (Elt Ideal) ((c : Thread nD τ).loc main_v4) :=
  meanOf (lossArr (m ((c : Thread nD τ).loc main_arg0)) (m ((c : Thread nD τ).loc main_arg1))) reducesTo_S4096_S_d0 h_S_

/-- The host lines after the region, from the loss array the region leaves. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  rw [(Pipeline.withArrays_arr spec0 launch0.win.arr_inj c _ _ 2).trans (final m c), Earr_eq, Parr_eq]
  rfl

/-- The run, read: the result buffer at the mean of the losses, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Hand

end
-- ==== Proof.RefValue.lean ====
/-
  The idealized reference's result as the same function of its two argument arrays.

  The reference forms all 32·128 rows at once: the product [32, 128, 8192] of the projections against the
  embeddings, re-laid as [4096, 8192] (row j = 128·k + p is projection p of set k), then row by row the mean, the
  spread, the normalised deviations, the third and fourth moments and the quadratic loss, and last the mean of the
  4096 losses. Read at an index, each stage of row j is the corresponding function of `Cert.Sigreg` of the row
  `row j = fun b => (re-laid product)[j, b]`. Two things differ from the kernel's spelling and are equal on the
  extended reals: each sum starts from the zero word (0 + s = s), and the third power is (n·n)·n where the kernel has
  n·(n·n), the product's factors P·E where the kernel has E·P (multiplication commutes).
-/
import proofs.«107740_j35055523070528_1_alg».proof.Proof.Gen.ReferenceIdeal.Read
import proofs.«107740_j35055523070528_1_alg».proof.Proof.Moments

noncomputable section

namespace Cert.ReferenceIdeal.Hand

open Idealize.ShloMosaic Idealize.ShloMosaic.ValueIdx Cert.ReferenceIdeal Cert.ReferenceIdeal.Gen Cert.ReferenceIdeal.Read Cert.Sigreg

variable (x0 : (⟨S8192x1024, .f32⟩ : BufTy).Contents (Elt Ideal)) (x1 : (⟨S32x128x1024, .f32⟩ : BufTy).Contents (Elt Ideal))

/-- Row j of the re-laid product. -/
def row (j : Fin 4096) : Fin 8192 → EReal := fun b => val_main_v1 (F := Ideal) x0 x1 (ix2 j b)

/-! ## The composed index maps, in coordinates -/

theorem sum_idx_2 (j : Fin 4096) (k : Fin 8192) : idx_main_v2 (ix1 j) k = ix2 j k :=
  funext fun a => Fin.ext (by match a with | ⟨0, _⟩ => rfl | ⟨1, _⟩ => rfl)
theorem sum_idx_9 (j : Fin 4096) (k : Fin 8192) : idx_main_v9 (ix1 j) k = ix2 j k :=
  funext fun a => Fin.ext (by match a with | ⟨0, _⟩ => rfl | ⟨1, _⟩ => rfl)
theorem sum_idx_23 (j : Fin 4096) (k : Fin 8192) : idx_main_v23 (ix1 j) k = ix2 j k :=
  funext fun a => Fin.ext (by match a with | ⟨0, _⟩ => rfl | ⟨1, _⟩ => rfl)
theorem sum_idx_28 (j : Fin 4096) (k : Fin 8192) : idx_main_v28 (ix1 j) k = ix2 j k :=
  funext fun a => Fin.ext (by match a with | ⟨0, _⟩ => rfl | ⟨1, _⟩ => rfl)
theorem col_idx_6 (j : Fin 4096) (b : Fin 8192) : idx_main_v5 (idx_main_v6 (ix2 j b)) = ix1 j :=
  funext fun a => Fin.ext (by match a with | ⟨0, _⟩ => rfl)
theorem col_idx_16 (j : Fin 4096) (b : Fin 8192) : idx_main_v15 (idx_main_v16 (ix2 j b)) = ix1 j :=
  funext fun a => Fin.ext (by match a with | ⟨0, _⟩ => rfl)
theorem col_idx_19 (j : Fin 4096) (b : Fin 8192) : idx_main_v18 (idx_main_v19 (ix2 j b)) = ix1 j :=
  funext fun a => Fin.ext (by match a with | ⟨0, _⟩ => rfl)

/-! ## The stages of row j -/

theorem v4_apply (j : Fin 4096) : val_main_v4 (F := Ideal) x0 x1 (ix1 j) = rowMean (row x0 x1 j) := by
  rw [val_main_v4_apply, val_main_v2_apply]
  show Ideal.div (Ideal.ofBits .f32 0x00000000#32 + ∑ k : Fin 8192, val_main_v1 (F := Ideal) x0 x1 (idx_main_v2 (ix1 j) k)) cN = _
  rw [Ideal.ofBits_zero_f32, zero_add]
  simp only [sum_idx_2]
  rfl

theorem v7_apply (j : Fin 4096) (b : Fin 8192) : val_main_v7 (F := Ideal) x0 x1 (ix2 j b) = rowDev (row x0 x1 j) b := by
  rw [val_main_v7_apply, val_main_v6_apply, val_main_v5_apply, col_idx_6, v4_apply]
  rfl

theorem v17_apply (j : Fin 4096) (b : Fin 8192) : val_main_v17 (F := Ideal) x0 x1 (ix2 j b) = rowDev (row x0 x1 j) b := by
  rw [val_main_v17_apply, val_main_v16_apply, val_main_v15_apply, col_idx_16, v4_apply]
  rfl

theorem v14_apply (j : Fin 4096) : val_main_v14 (F := Ideal) x0 x1 (ix1 j) = rowStd (row x0 x1 j) := by
  rw [val_main_v14_apply, val_main_v12_apply, val_main_v11_apply, val_main_v9_apply]
  show Ideal.sqrt (Ideal.div (Ideal.ofBits .f32 0x00000000#32 + ∑ k : Fin 8192, val_main_v8 (F := Ideal) x0 x1 (idx_main_v9 (ix1 j) k)) cN) + cEps = _
  rw [Ideal.ofBits_zero_f32, zero_add]
  simp only [sum_idx_9, val_main_v8_apply, v7_apply]
  rfl

theorem v20_apply (j : Fin 4096) (b : Fin 8192) : val_main_v20 (F := Ideal) x0 x1 (ix2 j b) = rowNrm (row x0 x1 j) b := by
  rw [val_main_v20_apply, val_main_v19_apply, val_main_v18_apply, col_idx_19, v14_apply, v17_apply]
  rfl

theorem v25_apply (j : Fin 4096) : val_main_v25 (F := Ideal) x0 x1 (ix1 j) = rowM3 (row x0 x1 j) := by
  rw [val_main_v25_apply, val_main_v23_apply]
  show Ideal.div (Ideal.ofBits .f32 0x00000000#32 + ∑ k : Fin 8192, val_main_v22 (F := Ideal) x0 x1 (idx_main_v23 (ix1 j) k)) cN = _
  rw [Ideal.ofBits_zero_f32, zero_add]
  simp only [sum_idx_23, val_main_v22_apply, val_main_v21_apply, v20_apply]
  unfold rowM3
  refine congrArg (fun s => Ideal.div s cN) (Finset.sum_congr rfl fun b _ => ?_)
  exact mul_comm _ _

theorem v30_apply (j : Fin 4096) : val_main_v30 (F := Ideal) x0 x1 (ix1 j) = rowM4 (row x0 x1 j) := by
  rw [val_main_v30_apply, val_main_v28_apply]
  show Ideal.div (Ideal.ofBits .f32 0x00000000#32 + ∑ k : Fin 8192, val_main_v27 (F := Ideal) x0 x1 (idx_main_v28 (ix1 j) k)) cN = _
  rw [Ideal.ofBits_zero_f32, zero_add]
  simp only [sum_idx_28, val_main_v27_apply, val_main_v26_apply, v20_apply]
  rfl

/-- The loss of row j. -/
theorem v45_apply (j : Fin 4096) : val_main_v45 (F := Ideal) x0 x1 (ix1 j) = rowLoss (row x0 x1 j) := by
  show ((val_main_v4 (F := Ideal) x0 x1 (ix1 j) * val_main_v4 (F := Ideal) x0 x1 (ix1 j)
        + (val_main_v14 (F := Ideal) x0 x1 (ix1 j) - val_main_v32 (F := Ideal) (ix1 j)) * (val_main_v14 (F := Ideal) x0 x1 (ix1 j) - val_main_v32 (F := Ideal) (ix1 j)))
      + val_main_v37 (F := Ideal) (ix1 j) * (val_main_v25 (F := Ideal) x0 x1 (ix1 j) * val_main_v25 (F := Ideal) x0 x1 (ix1 j)))
    + val_main_v43 (F := Ideal) (ix1 j) * ((val_main_v30 (F := Ideal) x0 x1 (ix1 j) - val_main_v40 (F := Ideal) (ix1 j)) * (val_main_v30 (F := Ideal) x0 x1 (ix1 j) - val_main_v40 (F := Ideal) (ix1 j))) = _
  rw [v4_apply, v14_apply, v25_apply, v30_apply, val_main_v32_apply, val_main_v37_apply, val_main_v43_apply, val_main_v40_apply]
  rfl

/-! ## The rows are the projections' rows -/

/-- Row 128·k + p of the re-laid product is projection p of set k against the batch. -/
theorem row_eq (j : Fin 4096) (k : Fin 32) (p : Fin 128) (h : j.val = k.val * 128 + p.val) :
    row x0 x1 j = projRow x0 x1 k p := by
  funext b
  unfold row projRow
  rw [val_main_v1_apply, val_main_v0_apply]
  refine Finset.sum_congr rfl fun d _ => ?_
  have el : lidx_main_v0 (idx_main_v1 (ix2 j b)) d = ix3 k p d := funext fun a => Fin.ext (by
    have hb : b.val < 8192 := b.isLt
    have hp : p.val < 128 := p.isLt
    match a with
    | ⟨0, _⟩ => show (j.val * 8192 + b.val) / 1048576 = k.val; omega
    | ⟨1, _⟩ => show (j.val * 8192 + b.val) / 8192 % 128 = p.val; omega
    | ⟨2, _⟩ => rfl)
  have er : ridx_main_v0 (idx_main_v1 (ix2 j b)) d = ix2 b d := funext fun a => Fin.ext (by
    have hb : b.val < 8192 := b.isLt
    match a with
    | ⟨0, _⟩ => show (j.val * 8192 + b.val) % 8192 = b.val; omega
    | ⟨1, _⟩ => rfl)
  rw [el, er]
  exact mul_comm _ _

/-- The 4096 losses are `lossArr` of the arguments. -/
theorem v45_eq : val_main_v45 (F := Ideal) x0 x1 = lossArr x0 x1 := by
  funext i
  obtain ⟨j, rfl⟩ : ∃ j : Fin 4096, i = ix1 j := ⟨i 0, eq_ix1 i⟩
  rw [v45_apply]
  unfold lossArr
  exact congrArg rowLoss (row_eq x0 x1 j _ _ (by show j.val = j.val / 128 * 128 + j.val % 128; omega))

/-- The result is the mean of those losses. -/
theorem v47_eq : val_main_v47 (F := Ideal) x0 x1 = meanOf (lossArr x0 x1) reducesTo_S4096_S_d0 h_S_ := by
  unfold val_main_v47 val_main_v46
  rw [v45_eq]
  rfl

end Cert.ReferenceIdeal.Hand

end
-- ==== Proof.lean ====
/-
  The kernel against its reference, over the extended reals.

  Both programs take embeddings E : [8192, 1024] and projections P : [32, 128, 1024] and return one number: the
  mean over the 4096 rows (k, p) of a quadratic loss in the first four moments of the row
  x_b = Σ_d E[b, d] · P[k, p, d]  (b over the 8192 samples): with μ the row's mean, σ = √(mean of (x − μ)²) + ε and
  n = (x − μ) / σ, the loss is μ² + (σ − 1)² + c·(mean of n³)² + c·(mean of n⁴ − 3)² (`Cert.Sigreg.rowLoss`).

  The kernel computes the rows of one set k per grid point, 128 lanes at a time, from a matrix product into a zero
  accumulator and sums down the sample axis; the reference computes all rows at once from one product re-laid as
  [4096, 8192] and sums along its second axis; both finish with the same host mean. On the extended reals a change of
  float format is the identity, both products and all sums are the textbook ones, and the two spellings differ only
  by the order of factors in commutative products and by sums started from zero: the results are one function of
  the arguments, `meanOf (lossArr E P)`. No step needs the inputs to be finite.

  The kernel's side is `Cert.KernelIdeal.Hand.run` (the body read lane by lane, the 32 blocks tiling the loss array,
  the host lines around the region), the reference's `Cert.ReferenceIdeal.Hand.v47_eq` over its generated run.
  The three frames: the two kernels' are generated; the reference's is its run with the result dropped. The
  idealization rewrote nothing, so `preserves` is `True`.
-/
import proofs.«107740_j35055523070528_1_alg».proof.Defs
import proofs.«107740_j35055523070528_1_alg».proof.Proof.Gen.Kernel
import proofs.«107740_j35055523070528_1_alg».proof.Proof.Gen.Kernel.Skeleton
import proofs.«107740_j35055523070528_1_alg».proof.Proof.Gen.Kernel.Launch
import proofs.«107740_j35055523070528_1_alg».proof.Proof.Gen.Kernel.Points
import proofs.«107740_j35055523070528_1_alg».proof.Proof.Gen.Kernel.Frame
import proofs.«107740_j35055523070528_1_alg».proof.Proof.Gen.KernelIdeal
import proofs.«107740_j35055523070528_1_alg».proof.Proof.Gen.KernelIdeal.Skeleton
import proofs.«107740_j35055523070528_1_alg».proof.Proof.Gen.KernelIdeal.Launch
import proofs.«107740_j35055523070528_1_alg».proof.Proof.Gen.KernelIdeal.Points
import proofs.«107740_j35055523070528_1_alg».proof.Proof.Gen.KernelIdeal.Frame
import proofs.«107740_j35055523070528_1_alg».proof.Proof.Gen.ReferenceIdeal
import proofs.«107740_j35055523070528_1_alg».proof.Proof.Gen.Pre_finite_inputs
import proofs.«107740_j35055523070528_1_alg».proof.Proof.Gen.ReferenceIdeal.Run
import proofs.«107740_j35055523070528_1_alg».proof.Proof.Gen.ReferenceIdeal.Read
import proofs.«107740_j35055523070528_1_alg».proof.Proof.KernelValue
import proofs.«107740_j35055523070528_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end at the mean of the 4096 row losses of those
    arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.Hand.v47_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
